-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩
abbrev S65536 : Shape := ⟨1, ![65536]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  reducesTo_S65536x512_S65536_d1 : S65536x512.ReducesTo [1] S65536
  bcast_S_S65536 : S_.BroadcastsInDim S65536 (![] : Fin 0 → Fin S65536.rank)
  reducesTo_S65536_S_d0 : S65536.ReducesTo [0] S_

variable [Facts]

def fn_part1 {F : FTy → Type} [FloatOps F] (main_v14 : IVec S_ 1) (main_v15 : FVec F S65536x512 .f32) (main_cst_5 : FVec F S_ .f32) : IVec S_ 1 :=
  let main_v16 : FVec F S65536 .f32 := (fun x v => Host.reduceAdd x v reducesTo_S65536x512_S65536_d1 h_S_) main_v15 main_cst_5
  let main_cst_6 : FVec F S_ .f32 := constant S_ .f32 0x00000000#32
  let main_v17 : FVec F S65536 .f32 := broadcastInDim S65536 ![] bcast_S_S65536 main_cst_6
  let main_v18 : IVec S65536 1 := cmpf .ogt main_v16 main_v17
  let main_c_7 : IVec S_ 1 := constantI S_ 1 1#1
  let main_v19 : IVec S_ 1 := (fun x v => Host.reduce IntOp.andi x v reducesTo_S65536_S_d0 h_S_) main_v18 main_c_7
  let main_v20 : IVec S_ 1 := andi main_v14 main_v19
  main_v20

def fn {F : FTy → Type} [FloatOps F] (main_arg0 : FVec F S65536x512 .f32) (main_arg1 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := mulf main_arg0 main_arg0
  let main_cst_2 : FVec F S_ .f32 := constant S_ .f32 0x00000000#32
  let main_v10 : FVec F S65536 .f32 := (fun x v => Host.reduceAdd x v reducesTo_S65536x512_S65536_d1 h_S_) main_v9 main_cst_2
  let main_cst_3 : FVec F S_ .f32 := constant S_ .f32 0x00000000#32
  let main_v11 : FVec F S65536 .f32 := broadcastInDim S65536 ![] bcast_S_S65536 main_cst_3
  let main_v12 : IVec S65536 1 := cmpf .ogt main_v10 main_v11
  let main_c_4 : IVec S_ 1 := constantI S_ 1 1#1
  let main_v13 : IVec S_ 1 := (fun x v => Host.reduce IntOp.andi x v reducesTo_S65536_S_d0 h_S_) main_v12 main_c_4
  let main_v14 : IVec S_ 1 := andi main_v8 main_v13
  let main_v15 : FVec F S65536x512 .f32 := mulf main_arg1 main_arg1
  let main_cst_5 : FVec F S_ .f32 := constant S_ .f32 0x00000000#32
  fn_part1 (F := F) main_v14 main_v15 main_cst_5
-- ==== Kernel.lean ====
abbrev S65536x512 : Shape := ⟨2, ![65536, 512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1x1, .f32⟩
  | .hbm, ⟨3, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1, .f32⟩
  | .local _ .vmem, ⟨5, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x512 : Shape := ⟨2, ![65536, 512]⟩
abbrev S_ : Shape := ⟨0, ![]⟩
abbrev S65536 : Shape := ⟨1, ![65536]⟩
abbrev S65536x1 : Shape := ⟨2, ![65536, 1]⟩

abbrev nBuf : Space → Nat
  | .hbm => 25
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S65536x512, .f32⟩
  | .hbm, ⟨8, _⟩ => ⟨S65536x512, .f32⟩
  | .hbm, ⟨9, _⟩ => ⟨S65536x512, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S65536x1, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S_, .f32⟩
  | .hbm, ⟨18, _⟩ => ⟨S65536, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  reducesTo_S65536_S_d0 : S65536.ReducesTo [0] S_

variable [Facts₀]

class Facts : Prop extends Facts₀ where

variable [Facts]
-- ==== Proof.KernelValue.lean ====
/-
  The idealized kernel's result, read off its frame run.

  The grid has 64 points; point t stages rows 1024·t … 1024·t + 1023 of the two arguments. A one-element
  scratch carries a running sum: point 0 resets it to zero and adds its block's partial sum, every later
  point adds its own. The last point (63) alone stores into the output block, the value 1 − acc / 65536,
  and only that point's block is written back; the block is the whole [1,1] result array, which the host
  then reshapes to a scalar.
-/
import proofs.«102373_j52166672777434_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable {F : FTy → Type} [FloatOps F]

theorem hz : (![0, 0] : Fin 2 → Nat) = fun _ => 0 := funext fun a => by fin_cases a <;> rfl

/-! ## What each control case leaves, as the body's payloads -/

/-- A middle point: the scratch, found holding `s`, ends at `s` plus the block's partial sum. -/
theorem scratch_B (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread,
    View.ld_unit_zero (S := S1024x512) hz, View.ld_unit_zero (S := S1x1) hz]

/-- The first point: the scratch is reset to zero, read back, and ends at zero plus the block's partial sum. -/
theorem scratch_A (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) :
    sout0_A_0 c i arg1 harg1 arg2 harg2 arg3 harg3 arg4 harg4 hc0 hc1 x0 x1 = k0_pay2 x0 x1 k0_pay1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread,
    View.ld_unit_zero (S := S1024x512) hz, View.ld_unit_zero (S := S1x1) hz]

/-- The last point: the output block is 1 − (the updated scratch) / 65536. -/
theorem out_C (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) :
    out0_C_2 c i arg1 harg1 arg2 harg2 arg3 harg3 arg4 harg4 hc0 hc1 x0 x1 xs0 = k0_pay3 (k0_pay2 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readCov_unit_zero (S := S1x1) _ hz, View.readAt_eq_ld, harg1.read_unread, harg2.read_unread, harg4.read_unread,
    View.ld_unit_zero (S := S1024x512) hz, View.ld_unit_zero (S := S1x1) hz]

/-! ## The running sum, point by point -/

variable (m : (ℓ : Loc nD τ sig) → Buf (Elt F) ℓ) (ρ : Dev nD → PrngReg)

/-- The block of the first argument (rows 1024·t …) staged at point `t`, and of the second. -/
abbrev cblk (c : Dev nD) (t : Fin cfg0.N) : Vec F S1024x512 .f32 := iblk m c 0 t
abbrev eblk (c : Dev nD) (t : Fin cfg0.N) : Vec F S1024x512 .f32 := iblk m c 1 t

/-- The scratch after point `n`: zero plus the partial sums of points 0 … n, added in point order. -/
def acc (c : Dev nD) : (n : ℕ) → n < cfg0.N → Vec F S1x1 .f32
  | 0, h => k0_pay2 (cblk m c ⟨0, h⟩) (eblk m c ⟨0, h⟩) k0_pay1
  | n + 1, h => k0_pay2 (cblk m c ⟨n + 1, h⟩) (eblk m c ⟨n + 1, h⟩) (acc c n (Nat.lt_of_succ_lt h))

/-- Before the last point the frame's carried scratch is that running sum: induction on the point. -/
theorem scratch_eq (c : Dev nD) : ∀ (n : ℕ) (h : n < cfg0.N), n < 63 → (outsAt0 m c n h).2 = acc m c n h
  | 0, h, _ => by
    rw [outsAt0_A m c ⟨0, h⟩ rfl (by dsimp only; decide)]
    dsimp only
    exact scratch_A (F := F) c _ _ _ _ _ _ _ _ _ _ _ (cblk m c ⟨0, h⟩) (eblk m c ⟨0, h⟩)
  | n + 1, h, h63 => by
    have hB0 : ¬(⟨n + 1, h⟩ : Fin cfg0.N).val % 64 = 0 := by dsimp only; omega
    have hB1 : ¬(⟨n + 1, h⟩ : Fin cfg0.N).val % 64 = 63 := by dsimp only; omega
    rw [outsAt0_B m c ⟨n + 1, h⟩ hB0 hB1]
    dsimp only
    refine (scratch_B (F := F) c _ _ _ _ _ _ _ _ _ _ _ (cblk m c ⟨n + 1, h⟩) (eblk m c ⟨n + 1, h⟩) _).trans ?_
    show k0_pay2 _ _ (outsAt0 m c n _).2 = k0_pay2 _ _ (acc m c n _)
    rw [scratch_eq c n _ (by omega)]

theorem lt63 : 63 < cfg0.N := by rw [show cfg0.N = 64 from N_0]; decide
theorem lt62 : 62 < cfg0.N := by rw [show cfg0.N = 64 from N_0]; decide

/-- The last grid point. -/
abbrev tLast : Fin cfg0.N := ⟨63, lt63⟩

/-- The result array's one element: 1 − (the sum over all 64 points) / 65536. -/
abbrev result (c : Dev nD) : Buf (Elt F) ((c : Thread nD τ).loc main_v0) :=
  k0_pay3 (k0_pay2 (cblk m c tLast) (eblk m c tLast) (acc m c 62 lt62))

/-- What the last point leaves in the output block. -/
theorem out_last (c : Dev nD) : (outsAt0 m c 63 lt63).1 = result m c := by
  rw [outsAt0_C m c tLast (by decide) (by decide)]
  dsimp only
  refine (out_C (F := F) c _ _ _ _ _ _ _ _ _ _ _ (cblk m c tLast) (eblk m c tLast) _).trans ?_
  show k0_pay3 (k0_pay2 _ _ (outsAt0 m c 62 _).2) = k0_pay3 (k0_pay2 _ _ (acc m c 62 _))
  rw [scratch_eq m c 62 _ (by decide)]

/-! ## The result array, and the host's reshape of it -/

/-- Only the last point writes the output block back, and it writes `result`: the block at index (0, 0) of the
    [1,1] array, read through zero offsets, is the array. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, out_last]
  have hz' : (fun a => win0_2.index tLast a * main_v0.ty.shape.size a) = fun _ => 0 := funext fun a => by fin_cases a <;> decide
  exact (Memref.read_access_unit_zero (Elt F) main_v0 hz' (fun a => by rw [congrFun hz' a]; simp) (result m c)).symm

/-- So the [1,1] result array ends holding `result`: the last point's block covers it. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The scalar the host's reshape makes of the [1,1] array. -/
theorem tail_eq (c : Dev nD) :
    Pipeline.afterTail₀ cfgs (dats m) 0 (V0 m) [hostOps1] c main_v1 = shapeCast S_ (result m c) shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c := (Pipeline.withArrays_arr spec0 launch0.win.arr_inj c _ _ 2).trans (final_o m c)
  funext i
  exact congrArg (fun x : Buf (Elt F) ((c : Thread nD τ).loc main_v0) => shapeCast S_ x shapeCasts_S1x1_S_ i) e

/-- The run, read: the scalar result at the reshape of `result`, the two arguments unchanged. -/
theorem run : θ_run defs (onTc (τ := τ) (main (F := F))) ⟨m, fun _ => 0, ρ⟩ fun r => ∀ c : Dev nD,
      r.2.mem ((c.tc : Thread nD τ).loc main_v1) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.RowCosine.lean ====
/-
  The mathematics of one row: for real vectors c, e with nonzero sums of squares,
  (∑ c e) / √(∑ c² · ∑ e²) = ∑ (e / √∑ e²) · (c / √∑ c²).
-/
import Idealize.ShloMosaic.PureOps.Ideal

noncomputable section

namespace Cert.RowCosine
open Idealize.ShloMosaic
open scoped BigOperators

variable {ι : Type} [Fintype ι]

/-- ∑ c² -/
def sq (c : ι → EReal) : EReal := ∑ k, c k * c k
/-- ∑ c·e -/
def dot (c e : ι → EReal) : EReal := ∑ k, c k * e k
/-- the kernel's form: one quotient by the root of the product of the squared norms -/
def cosK (c e : ι → EReal) : EReal := Ideal.div (dot c e) (Ideal.sqrt (sq c * sq e))
/-- the reference's form: the sum of the products of the two normalised entries -/
def cosR (c e : ι → EReal) : EReal :=
  ∑ k, Ideal.div (e k) (Ideal.sqrt (sq e)) * Ideal.div (c k) (Ideal.sqrt (sq c))

/-- A finite sum of finite extended reals is the extended real of the real sum. -/
theorem coe_sum (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The sum of squares of finite entries, as a real. -/
theorem sq_coe (c : ι → ℝ) : sq (fun k => ((c k : ℝ) : EReal)) = ((∑ k, c k * c k : ℝ) : EReal) := by
  unfold sq
  simp only [← EReal.coe_mul]
  exact coe_sum _ _

/-- The sum of products of finite entries, as a real. -/
theorem dot_coe (c e : ι → ℝ) :
    dot (fun k => ((c k : ℝ) : EReal)) (fun k => ((e k : ℝ) : EReal)) = ((∑ k, c k * e k : ℝ) : EReal) := by
  unfold dot
  simp only [← EReal.coe_mul]
  exact coe_sum _ _

/-- The root of a positive real, in the extended reals. -/
theorem sqrt_coe_pos {A : ℝ} (hA : 0 < A) : Ideal.sqrt (A : EReal) = ((Real.sqrt A : ℝ) : EReal) := by
  rw [Ideal.sqrt_coe, if_neg (not_lt.mpr hA.le)]

/-- Both forms, for real vectors, are the same real number: the kernel's quotient, and the
    reference's sum of normalised products, since √(A·B) = √A·√B. -/
theorem cos_coe (c e : ι → ℝ) (hA : 0 < ∑ k, c k * c k) (hB : 0 < ∑ k, e k * e k) :
    cosK (fun k => ((c k : ℝ) : EReal)) (fun k => ((e k : ℝ) : EReal))
        = (((∑ k, c k * e k) / Real.sqrt ((∑ k, c k * c k) * (∑ k, e k * e k)) : ℝ) : EReal) ∧
      cosR (fun k => ((c k : ℝ) : EReal)) (fun k => ((e k : ℝ) : EReal))
        = (((∑ k, c k * e k) / Real.sqrt ((∑ k, c k * c k) * (∑ k, e k * e k)) : ℝ) : EReal) := by
  have hsA : 0 < Real.sqrt (∑ k, c k * c k) := Real.sqrt_pos.mpr hA
  have hsB : 0 < Real.sqrt (∑ k, e k * e k) := Real.sqrt_pos.mpr hB
  have hAB : 0 < (∑ k, c k * c k) * (∑ k, e k * e k) := mul_pos hA hB
  have hsAB : 0 < Real.sqrt ((∑ k, c k * c k) * (∑ k, e k * e k)) := Real.sqrt_pos.mpr hAB
  constructor
  · unfold cosK
    rw [sq_coe, sq_coe, dot_coe, ← EReal.coe_mul, sqrt_coe_pos hAB, Ideal.div_coe hsAB.ne',
      ← EReal.coe_mul]
    congr 1
    rw [mul_one_div]
  · unfold cosR
    rw [sq_coe, sq_coe, sqrt_coe_pos hA, sqrt_coe_pos hB]
    simp only [Ideal.div_coe hsA.ne', Ideal.div_coe hsB.ne', ← EReal.coe_mul]
    rw [coe_sum]
    congr 1
    rw [Real.sqrt_mul hA.le, Finset.sum_div]
    refine Finset.sum_congr rfl fun k _ => ?_
    field_simp

theorem cosK_eq_cosR (c e : ι → EReal) (hc : ∀ k, ∃ x : ℝ, c k = (x : EReal))
    (he : ∀ k, ∃ x : ℝ, e k = (x : EReal))
    (hcp : (0 : EReal) < sq c) (hep : (0 : EReal) < sq e) : cosK c e = cosR c e := by
  choose c' hc' using hc
  choose e' he' using he
  obtain rfl : c = fun k => ((c' k : ℝ) : EReal) := funext hc'
  obtain rfl : e = fun k => ((e' k : ℝ) : EReal) := funext he'
  rw [sq_coe, EReal.coe_pos] at hcp hep
  obtain ⟨h1, h2⟩ := cos_coe c' e' hcp hep
  rw [h1, h2]

/-- the common value is a real number -/
theorem cosK_real (c e : ι → EReal) (hc : ∀ k, ∃ x : ℝ, c k = (x : EReal))
    (he : ∀ k, ∃ x : ℝ, e k = (x : EReal))
    (hcp : (0 : EReal) < sq c) (hep : (0 : EReal) < sq e) : ∃ x : ℝ, cosK c e = (x : EReal) := by
  choose c' hc' using hc
  choose e' he' using he
  obtain rfl : c = fun k => ((c' k : ℝ) : EReal) := funext hc'
  obtain rfl : e = fun k => ((e' k : ℝ) : EReal) := funext he'
  rw [sq_coe, EReal.coe_pos] at hcp hep
  exact ⟨_, (cos_coe c' e' hcp hep).1⟩

end Cert.RowCosine

end
-- ==== Proof.CosineSpec.lean ====
/-
  The value both programs compute, as one function of the two argument arrays (each [65536, 512]):

      loss c e = 1 − ( Σ_r cos_r ) / 65536,     cos_r = (Σ_k c[r,k]·e[r,k]) / √( Σ_k c[r,k]² · Σ_k e[r,k]² ),

  with the float words for 1 and 65536 kept as words (the same on both sides, never evaluated).
-/
import proofs.«102373_j52166672777434_1_alg».proof.Proof.RowCosine
import Idealize.ShloMosaic.Lib.ValueIdx

noncomputable section

namespace Cert.CosineSpec

open Idealize.ShloMosaic Idealize.ShloMosaic.ValueIdx Cert.RowCosine

/-- Row `r` of a [65536, 512] array. -/
abbrev row (x : (⟨2, ![65536, 512]⟩ : Shape).Idx → EReal) (r : Fin 65536) : Fin 512 → EReal := fun k => x (ix2 r k)

/-- The sum of the 65536 row cosines, each in the one-quotient form. -/
def total (c e : (⟨2, ![65536, 512]⟩ : Shape).Idx → EReal) : EReal := ∑ r : Fin 65536, cosK (row c r) (row e r)

/-- One minus the mean of the row cosines. -/
def loss (c e : (⟨2, ![65536, 512]⟩ : Shape).Idx → EReal) : EReal :=
  Ideal.ofBits .f32 0x3F800000#32 - Ideal.div (total c e) (Ideal.ofBits .f32 0x47800000#32)

/-- The rows 1024·s + i, s < 64, i < 1024, are all 65536 rows, each once. -/
def blockEquiv : Fin 64 × Fin 1024 ≃ Fin 65536 := finProdFinEquiv

theorem blockEquiv_val (s : Fin 64) (i : Fin 1024) : (blockEquiv (s, i)).val = 1024 * s.val + i.val := by
  show i.val + 1024 * s.val = 1024 * s.val + i.val
  omega

/-- A sum over all rows, taken block by block. -/
theorem sum_rows_by_blocks {M : Type*} [AddCommMonoid M] (g : Fin 65536 → M) :
    ∑ r : Fin 65536, g r
      = ∑ s : Fin 64, ∑ i : Fin 1024, g ⟨1024 * s.val + i.val, by have := s.isLt; have := i.isLt; omega⟩ := by
  rw [← Equiv.sum_comp blockEquiv g, Fintype.sum_prod_type]
  exact Finset.sum_congr rfl fun s _ => Finset.sum_congr rfl fun i _ => congrArg g (Fin.ext (blockEquiv_val s i))

end Cert.CosineSpec

end
-- ==== Proof.KernelRead.lean ====
/-
  The idealized kernel's result as the function `loss` of the two argument arrays.

  At the ideal values the body's arithmetic is, for the staged blocks c, e (each [1024, 512]) and the carried sum s:
      s ↦ s + Σ_{i<1024} (Σ_k c[i,k]·e[i,k]) / √( Σ_k c[i,k]² · Σ_k e[i,k]² ),
  the first point starting from 0, and the last point storing 1 − s / 65536. Point t's blocks are rows
  1024·t … 1024·t + 1023 of the arguments, so the 64 partial sums together are the sum over all 65536 rows.
-/
import proofs.«102373_j52166672777434_1_alg».proof.Proof.KernelValue
import proofs.«102373_j52166672777434_1_alg».proof.Proof.LibRowOps
import proofs.«102373_j52166672777434_1_alg».proof.Proof.CosineSpec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.RunValue

open Cert.KernelIdeal Cert.KernelIdeal.Gen Cert.RowCosine Cert.CosineSpec

/-! ## The body's vector operations, read at an index -/

/-- A sum along axis 0 of an `[a, 1]` vector, at its one index: the sum of the column. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (p : Fin 1) :
    multiReduction .add [0] ⟨1, ![1]⟩ src acc h hφ hacc (ix1 p) = ∑ i : Fin a, src (ix2 i p) := by
  rw [Ideal.multiReduction_add_single]
  refine Finset.sum_congr rfl fun k _ => congrArg src (funext fun ax => Fin.ext ?_)
  match ax with
  | ⟨0, _⟩ => rfl
  | ⟨1, _⟩ => rfl

/-- A block's row sums kept as a column: Σ_k v[i,k] at (i, 0). -/
def rowSums (v : FVec Ideal S1024x512 .f32) : FVec Ideal S1024x1 .f32 :=
  shapeCast S1024x1 (multiReduction .add [1] S1024 v 0x00000000#32 reduces_S1024x512_S1024 (.inl rfl) rfl) shapeCasts_S1024_S1024x1

theorem rowSums_apply (v : FVec Ideal S1024x512 .f32) (i : Fin 1024) (u : Fin 1) :
    rowSums v (ix2 i u) = ∑ k : Fin 512, v (ix2 i k) :=
  (Cert.RowOps.shapeCast_a_a1_apply _ shapeCasts_S1024_S1024x1 i u).trans
    (Cert.RowOps.laneSum_apply v 0x00000000#32 reduces_S1024x512_S1024 (.inl rfl) rfl i)

/-- The block's partial sum of row cosines, as the [1,1] vector the body adds to the carried sum. -/
def partialSum (x0 x1 : FVec Ideal S1024x512 .f32) : FVec Ideal S1x1 .f32 :=
  shapeCast S1x1
    (multiReduction .add [0] S1
      (divf (rowSums (mulf x0 x1)) (sqrt (mulf (rowSums (mulf x0 x0)) (rowSums (mulf x1 x1)))))
      0x00000000#32 reduces_S1024x1_S1 (.inl rfl) rfl)
    shapeCasts_S1_S1x1

/-- The same number, written with the row cosine of the specification. -/
def blockSum (x0 x1 : FVec Ideal S1024x512 .f32) : EReal :=
  ∑ i : Fin 1024, cosK (fun k : Fin 512 => x0 (ix2 i k)) (fun k : Fin 512 => x1 (ix2 i k))

theorem partialSum_apply (x0 x1 : FVec Ideal S1024x512 .f32) (p q : Fin 1) :
    partialSum x0 x1 (ix2 p q) = blockSum x0 x1 := by
  unfold partialSum
  refine (Cert.RowOps.shapeCast_a_a1_apply _ shapeCasts_S1_S1x1 p q).trans ?_
  refine (colSum_apply _ 0x00000000#32 reduces_S1024x1_S1 (.inl rfl) rfl p).trans ?_
  refine Finset.sum_congr rfl fun i _ => ?_
  show Ideal.div (rowSums (mulf x0 x1) (ix2 i p))
      (Ideal.sqrt (rowSums (mulf x0 x0) (ix2 i p) * rowSums (mulf x1 x1) (ix2 i p))) = _
  rw [rowSums_apply, rowSums_apply, rowSums_apply]
  rfl

/-- The update: the carried sum plus the block's partial sum. -/
theorem pay2_apply (x0 x1 : Vec Ideal S1024x512 .f32) (s : Vec Ideal S1x1 .f32) (j : S1x1.Idx) :
    k0_pay2 (F := Ideal) x0 x1 s j = (s j : EReal) + blockSum x0 x1 := by
  obtain ⟨p, q, rfl⟩ : ∃ (p : Fin 1) (q : Fin 1), j = ix2 p q := ⟨j 0, j 1, eq_ix2 j⟩
  have e : k0_pay2 (F := Ideal) x0 x1 s = addf s (partialSum x0 x1) := by
    unfold k0_pay2
    exact shapeCast_self _ _
  rw [e]
  show (s (ix2 p q) : EReal) + partialSum x0 x1 (ix2 p q) = _
  rw [partialSum_apply]

/-- The reset value is zero. -/
theorem pay1_apply (j : S1x1.Idx) : k0_pay1 (F := Ideal) j = (0 : EReal) := by
  have e : k0_pay1 (F := Ideal) = broadcast S1x1 (Scalar.ofBits .f32 0x00000000#32) := by
    unfold k0_pay1
    exact shapeCast_self _ _
  rw [e]
  show Ideal.ofBits .f32 0x00000000#32 = 0
  exact Ideal.ofBits_zero_f32

/-- The stored result: 1 − s / 65536. -/
theorem pay3_apply (s : Vec Ideal S1x1 .f32) (j : S1x1.Idx) :
    k0_pay3 (F := Ideal) s j
      = Ideal.ofBits .f32 0x3F800000#32 - Ideal.div (s j : EReal) (Ideal.ofBits .f32 0x47800000#32) := rfl

/-! ## The blocks are rows of the arguments -/

variable (m : (ℓ : Loc nD τ sig) → Buf (Elt Ideal) ℓ)

/-- The two argument arrays. -/
abbrev carr (c : Dev nD) : FVec Ideal S65536x512 .f32 := m ((c : Thread nD τ).loc main_arg0)
abbrev earr (c : Dev nD) : FVec Ideal S65536x512 .f32 := m ((c : Thread nD τ).loc main_arg1)

theorem index_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

theorem row_lt (t : Fin cfg0.N) (i : Fin 1024) : 1024 * t.val + i.val < 65536 := by
  have := t.isLt; have hN : cfg0.N = 64 := N_0; have := i.isLt; omega

/-- Entry (i, k) of the first argument's block at point `t` is entry (1024·t + i, k) of the array. -/
theorem cblk_apply (c : Dev nD) (t : Fin cfg0.N) (i : Fin 1024) (k : Fin 512) :
    cblk m c t (ix2 i k) = carr m c (ix2 ⟨1024 * t.val + i.val, row_lt t i⟩ k) := by
  unfold cblk iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * i.val = 1024 * t.val + i.val; rw [(index_facts t).1]; omega
  | ⟨1, _⟩ => show win0_0.index t 1 * 512 + 1 * k.val = k.val; rw [(index_facts t).2.1]; omega

/-- The same for the second argument. -/
theorem eblk_apply (c : Dev nD) (t : Fin cfg0.N) (i : Fin 1024) (k : Fin 512) :
    eblk m c t (ix2 i k) = earr m c (ix2 ⟨1024 * t.val + i.val, row_lt t i⟩ k) := by
  unfold eblk iblk
  rw [View.read_apply]
  show V m c main_arg1 _ = m ((c : Thread nD τ).loc main_arg1) _
  rw [V_main_arg1]
  congr 1
  funext a
  apply Fin.ext
  match a with
  | ⟨0, _⟩ => show win0_1.index t 0 * 1024 + 1 * i.val = 1024 * t.val + i.val; rw [(index_facts t).2.2.1]; omega
  | ⟨1, _⟩ => show win0_1.index t 1 * 512 + 1 * k.val = k.val; rw [(index_facts t).2.2.2]; omega

/-! ## The running sum in closed form, and the result -/

/-- Point `n`'s partial sum (zero past the grid's end). -/
def ptSum (c : Dev nD) (n : ℕ) : EReal :=
  if h : n < cfg0.N then blockSum (cblk m c ⟨n, h⟩) (eblk m c ⟨n, h⟩) else 0

theorem acc_apply (c : Dev nD) : ∀ (n : ℕ) (h : n < cfg0.N) (j : S1x1.Idx),
    (acc m c n h j : EReal) = ∑ s ∈ Finset.range (n + 1), ptSum m c s
  | 0, h, j => by
    show (k0_pay2 (F := Ideal) (cblk m c ⟨0, h⟩) (eblk m c ⟨0, h⟩) (k0_pay1 (F := Ideal)) j : EReal) = _
    have e0 : ptSum m c 0 = blockSum (cblk m c ⟨0, h⟩) (eblk m c ⟨0, h⟩) := dif_pos h
    rw [pay2_apply, pay1_apply, zero_add, Finset.sum_range_one, e0]
  | n + 1, h, j => by
    have e : ptSum m c (n + 1) = blockSum (cblk m c ⟨n + 1, h⟩) (eblk m c ⟨n + 1, h⟩) := dif_pos h
    show (k0_pay2 (F := Ideal) (cblk m c ⟨n + 1, h⟩) (eblk m c ⟨n + 1, h⟩) (acc m c n (Nat.lt_of_succ_lt h)) j : EReal) = _
    rw [pay2_apply, acc_apply c n _ j, Finset.sum_range_succ _ (n + 1), e]

/-- A point's partial sum, over the argument arrays' rows. -/
theorem ptSum_rows (c : Dev nD) (s : Fin 64) :
    ptSum m c s.val = ∑ i : Fin 1024, cosK (row (carr m c) ⟨1024 * s.val + i.val, by have := s.isLt; have := i.isLt; omega⟩)
      (row (earr m c) ⟨1024 * s.val + i.val, by have := s.isLt; have := i.isLt; omega⟩) := by
  have hs : s.val < cfg0.N := by rw [show cfg0.N = 64 from N_0]; exact s.isLt
  unfold ptSum
  rw [dif_pos hs]
  unfold blockSum
  refine Finset.sum_congr rfl fun i _ => ?_
  congr 1
  · funext k; exact cblk_apply m c ⟨s.val, hs⟩ i k
  · funext k; exact eblk_apply m c ⟨s.val, hs⟩ i k

/-- The kernel's scalar result is `loss` of the two arguments. -/
theorem result_apply (c : Dev nD) (j : S_.Idx) :
    (shapeCast S_ (result m c) shapeCasts_S1x1_S_ j : EReal) = loss (carr m c) (earr m c) := by
  have hcast : shapeCast S_ (result m c) shapeCasts_S1x1_S_ j = result m c (ix2 (0 : Fin 1) (0 : Fin 1)) :=
    shapeCast_apply (result m c) shapeCasts_S1x1_S_ j (ix2 (0 : Fin 1) (0 : Fin 1)) (by
      show (S1x1.rowMajor (ix2 (0 : Fin 1) (0 : Fin 1))).val = (S_.rowMajor j).val
      rw [Shape.rowMajor_val_two]
      have h2 : (S_.rowMajor j).val < 1 := (S_.rowMajor j).isLt
      show (0 : ℕ) * 1 + 0 = (S_.rowMajor j).val
      omega)
  rw [hcast]
  show (k0_pay3 (F := Ideal) (k0_pay2 (cblk m c tLast) (eblk m c tLast) (acc m c 62 lt62)) (ix2 0 0) : EReal) = _
  rw [pay3_apply, pay2_apply, acc_apply]
  unfold loss
  refine congrArg (fun T : EReal => Ideal.ofBits .f32 0x3F800000#32 - Ideal.div T (Ideal.ofBits .f32 0x47800000#32)) ?_
  have e63 : ptSum m c 63 = blockSum (cblk m c tLast) (eblk m c tLast) := dif_pos lt63
  rw [← e63, ← Finset.sum_range_succ (fun s => ptSum m c s) 63, Finset.sum_range (fun s => ptSum m c s)]
  unfold total
  rw [sum_rows_by_blocks]
  exact Finset.sum_congr rfl fun s _ => ptSum_rows m c s

end Cert.KernelIdeal.RunValue

end
-- ==== Proof.RefRead.lean ====
/-
  The idealized reference's result as the function `loss` of the two argument arrays, where every entry is a real
  number and every row has a positive sum of squares.

  Row r of the reference is Σ_k (e[r,k] / √Σ e[r,·]²) · (c[r,k] / √Σ c[r,·]²) from the zero word; the rows are summed
  from the zero word, divided by 65536 and subtracted from 1. Row by row this is the one-quotient form.
-/
import proofs.«102373_j52166672777434_1_alg».proof.Proof.Gen.ReferenceIdeal.Read
import proofs.«102373_j52166672777434_1_alg».proof.Proof.CosineSpec
import Idealize.ShloMosaic.Lib.ValueIdx
import Idealize.ShloMosaic.Lib.ValueIdxRank1
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.RowCosine Cert.CosineSpec

variable (x0 x1 : (⟨S65536x512, .f32⟩ : BufTy).Contents (Elt Ideal))

theorem idx_row (r : Fin 65536) (k : Fin 512) : idx_main_v7 (ix1 r) k = ix2 r k :=
  funext fun a => Fin.ext (by match a with | ⟨0, _⟩ => rfl | ⟨1, _⟩ => rfl)
theorem idx_row0 (r : Fin 65536) (k : Fin 512) : idx_main_call0_v1 (ix1 r) k = ix2 r k :=
  funext fun a => Fin.ext (by match a with | ⟨0, _⟩ => rfl | ⟨1, _⟩ => rfl)
theorem idx_row1 (r : Fin 65536) (k : Fin 512) : idx_main_call1_v1 (ix1 r) k = ix2 r k :=
  funext fun a => Fin.ext (by match a with | ⟨0, _⟩ => rfl | ⟨1, _⟩ => rfl)
theorem idx_col0 (r : Fin 65536) (k : Fin 512) : idx_main_call0_v2 (idx_main_v1 (ix2 r k)) = ix1 r :=
  funext fun a => Fin.ext (by match a with | ⟨0, _⟩ => rfl)
theorem idx_col1 (r : Fin 65536) (k : Fin 512) : idx_main_call1_v2 (idx_main_v4 (ix2 r k)) = ix1 r :=
  funext fun a => Fin.ext (by match a with | ⟨0, _⟩ => rfl)

/-- The norm the second argument's entries are divided by: the root of the row's sum of squares. -/
theorem norm1_apply (r : Fin 65536) (k : Fin 512) :
    (val_main_v1 (F := Ideal) x1 (ix2 r k) : EReal) = Ideal.sqrt (Cert.RowCosine.sq (row x1 r)) := by
  rw [val_main_v1_apply, val_main_v0_apply, val_main_call0_v2_apply, idx_col0, val_main_call0_v1_apply]
  show Ideal.sqrt (Ideal.ofBits .f32 0x00000000#32 + _) = _
  rw [Ideal.ofBits_zero_f32, zero_add]
  unfold Cert.RowCosine.sq
  refine congrArg Ideal.sqrt (Finset.sum_congr rfl fun k' _ => ?_)
  rw [idx_row0]
  rfl

/-- The same for the first argument. -/
theorem norm0_apply (r : Fin 65536) (k : Fin 512) :
    (val_main_v4 (F := Ideal) x0 (ix2 r k) : EReal) = Ideal.sqrt (Cert.RowCosine.sq (row x0 r)) := by
  rw [val_main_v4_apply, val_main_v3_apply, val_main_call1_v2_apply, idx_col1, val_main_call1_v1_apply]
  show Ideal.sqrt (Ideal.ofBits .f32 0x00000000#32 + _) = _
  rw [Ideal.ofBits_zero_f32, zero_add]
  unfold Cert.RowCosine.sq
  refine congrArg Ideal.sqrt (Finset.sum_congr rfl fun k' _ => ?_)
  rw [idx_row1]
  rfl

/-- Row `r` of the reference is the sum of the products of the normalised entries. -/
theorem row_apply (r : Fin 65536) :
    (val_main_v7 (F := Ideal) x0 x1 (ix1 r) : EReal) = cosR (row x0 r) (row x1 r) := by
  rw [val_main_v7_apply]
  show Ideal.ofBits .f32 0x00000000#32 + _ = _
  rw [Ideal.ofBits_zero_f32, zero_add]
  unfold cosR
  refine Finset.sum_congr rfl fun k _ => ?_
  rw [idx_row, val_main_v6_apply, val_main_v2_apply, val_main_v5_apply]
  show Ideal.div (x1 (ix2 r k)) (val_main_v1 (F := Ideal) x1 (ix2 r k)) * Ideal.div (x0 (ix2 r k)) (val_main_v4 (F := Ideal) x0 (ix2 r k)) = _
  rw [norm1_apply, norm0_apply]

/-- The reference's scalar result is `loss` of the arguments, under the two facts about them. -/
theorem result_apply (hreal0 : ∀ i, ∃ x : ℝ, x0 i = (x : EReal)) (hreal1 : ∀ i, ∃ x : ℝ, x1 i = (x : EReal))
    (hpos0 : ∀ r : Fin 65536, (0 : EReal) < ∑ k : Fin 512, x0 (ix2 r k) * x0 (ix2 r k))
    (hpos1 : ∀ r : Fin 65536, (0 : EReal) < ∑ k : Fin 512, x1 (ix2 r k) * x1 (ix2 r k)) (j : S_.Idx) :
    (val_main_v10 (F := Ideal) x0 x1 j : EReal) = loss x0 x1 := by
  rw [val_main_v10_apply, val_main_v9_apply, val_main_v8_apply]
  show Ideal.ofBits .f32 0x3F800000#32 - Ideal.div (Ideal.ofBits .f32 0x00000000#32 + _) (Ideal.ofBits .f32 0x47800000#32) = _
  rw [Ideal.ofBits_zero_f32, zero_add]
  unfold loss total
  refine congrArg (fun T : EReal => Ideal.ofBits .f32 0x3F800000#32 - Ideal.div T (Ideal.ofBits .f32 0x47800000#32)) ?_
  rw [← Equiv.sum_comp (idxEquiv1 (n := 65536)).symm (fun j => val_main_v7 (F := Ideal) x0 x1 j)]
  refine Finset.sum_congr rfl fun r _ => ?_
  show (val_main_v7 (F := Ideal) x0 x1 (ix1 r) : EReal) = _
  rw [row_apply]
  exact (cosK_eq_cosR (row x0 r) (row x1 r) (fun k => hreal0 _) (fun k => hreal1 _) (hpos0 r) (hpos1 r)).symm

end Cert.ReferenceIdeal.RefValue

end
-- ==== Proof.PreFacts.lean ====
/-
  The precondition `finite_inputs`, read at the ideal values. The function is the conjunction of four one-bit
  facts about two [65536, 512] arrays x0 and x1: every entry of x0 has |x| < +∞, every entry of x1 likewise, every row of
  x0 has a positive sum of squares, every row of x1 likewise. At the ideal instance a float is an extended real; |x| < +∞
  excludes both infinities, so every entry is a real number, and the row's sum of squares from the constant 0 is the
  `Fin 512`-indexed sum of the products.
-/
import proofs.«102373_j52166672777434_1_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.PreFacts

open Idealize.ShloMosaic Idealize.ShloMosaic.ValueIdx
open Cert.Pre_finite_inputs Cert.Pre_finite_inputs.Facts
open scoped BigOperators

/-! ## Words and elements -/

/-- A one-bit word made from a Boolean is 1 exactly when the Boolean is true. -/
theorem ofBool_eq_one {b : Bool} : BitVec.ofBool b = 1#1 ↔ b = true := by cases b <;> decide

/-- The f32 pattern `0x7F800000` is +∞. -/
theorem ofBits_inf_f32 : Ideal.ofBits .f32 0x7F800000#32 = (⊤ : EReal) := by simp [Ideal.ofBits, Ideal.ieee]

/-- An extended real whose absolute value `max x (-x)` is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact of the first two conjuncts: the ordered comparison |x| < +∞ came out 1, so x is real. -/
theorem real_of_cmp (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one] at h
  exact real_of_abs_lt_top x (of_decide_eq_true h)

/-- The element fact of the last two conjuncts: the ordered comparison s > 0 came out 1, so 0 < s. -/
theorem pos_of_cmp (s : EReal) (h : Ideal.cmp .ogt s (Ideal.ofBits .f32 0x00000000#32) = 1#1) : (0 : EReal) < s := by
  rw [Ideal.ofBits_zero_f32] at h
  unfold Ideal.cmp at h
  rw [ofBool_eq_one] at h
  exact of_decide_eq_true h

/-! ## The two kinds of conjunct, over a variable array -/

variable [Cert.Pre_finite_inputs.Facts]

/-- The scalar shape has one index. -/
instance : Subsingleton S_.Idx := ⟨fun a b => funext fun d => d.elim0⟩

/-- `all(|x| < +∞)` is 1: every entry of x is a real number. -/
theorem all_real (x : FVec Ideal S65536x512 .f32)
    (h : Host.reduce IntOp.andi
        (cmpf .olt (Host.absf x) (broadcastInDim S65536x512 ![] bcast_S_S65536x512 (constant S_ .f32 0x7F800000#32)))
        (constantI S_ 1 1#1) reducesTo_S65536x512_S_d0_1 h_S_ ix0 = 1#1) :
    ∀ i, ∃ r : ℝ, x i = (r : EReal) := by
  intro i
  have e := Host.reduce_andi_all _ _ _ _ _ h i
  exact real_of_cmp (x i) e

/-- The row's sum of squares, from the constant 0 along axis 1, is the sum of the products over the row. -/
theorem row_sum (x : FVec Ideal S65536x512 .f32) (r : Fin 65536) :
    Host.reduceAdd (mulf x x) (constant S_ .f32 0x00000000#32) reducesTo_S65536x512_S65536_d1 h_S_ (ix1 r)
      = ∑ k : Fin 512, x (ix2 r k) * x (ix2 r k) := by
  generalize hy : mulf x x = y
  simp only [Host.reduceAdd, Ideal.hostReduceAdd_def]
  rw [Ideal.hostReduceAdd_single reducesTo_S65536x512_S65536_d1 (by decide)]
  show Ideal.ofBits .f32 0x00000000#32 + _ = _
  rw [Ideal.ofBits_zero_f32, zero_add]
  subst hy
  refine Finset.sum_congr rfl fun k _ => ?_
  exact congrArg (fun j => x j * x j)
    (funext fun a => Fin.ext (by match a with | ⟨0, _⟩ => rfl | ⟨1, _⟩ => rfl))

/-- `all(∑ₖ x[r,k]² > 0)` is 1: every row's sum of squares is positive. -/
theorem all_pos (x : FVec Ideal S65536x512 .f32)
    (h : Host.reduce IntOp.andi
        (cmpf .ogt (Host.reduceAdd (mulf x x) (constant S_ .f32 0x00000000#32) reducesTo_S65536x512_S65536_d1 h_S_)
          (broadcastInDim S65536 ![] bcast_S_S65536 (constant S_ .f32 0x00000000#32)))
        (constantI S_ 1 1#1) reducesTo_S65536_S_d0 h_S_ ix0 = 1#1) :
    ∀ r : Fin 65536, (0 : EReal) < ∑ k : Fin 512, x (ix2 r k) * x (ix2 r k) := by
  intro r
  have e := Host.reduce_andi_all _ _ _ _ _ h (ix1 r)
  rw [cmpf_apply, Ideal.cmpf_def, broadcastInDim_scalar_apply, constant_apply] at e
  rw [← row_sum x r]
  exact pos_of_cmp _ e

/-! ## The precondition -/

/-- The precondition's result is all ones: every entry of both arrays is a real number, and every row of both has a
    positive sum of squares. -/
theorem of_pre (x0 x1 : FVec Ideal Cert.Pre_finite_inputs.S65536x512 .f32)
    (h : Cert.Pre_finite_inputs.fn (F := Ideal) x0 x1 = fun _ => 1#1) :
    (∀ i, ∃ r : ℝ, x0 i = (r : EReal)) ∧ (∀ i, ∃ r : ℝ, x1 i = (r : EReal))
    ∧ (∀ r : Fin 65536, (0 : EReal) < ∑ k : Fin 512, x0 (ix2 r k) * x0 (ix2 r k))
    ∧ (∀ r : Fin 65536, (0 : EReal) < ∑ k : Fin 512, x1 (ix2 r k) * x1 (ix2 r k)) := by
  have h0 := congrFun h ValueIdx.ix0
  dsimp only [Cert.Pre_finite_inputs.fn, Cert.Pre_finite_inputs.fn_part1, andi] at h0
  obtain ⟨h0, h4⟩ := IntOp.andi_eq_one.1 h0
  obtain ⟨h0, h3⟩ := IntOp.andi_eq_one.1 h0
  obtain ⟨h1, h2⟩ := IntOp.andi_eq_one.1 h0
  exact ⟨all_real x0 h1, all_real x1 h2, all_pos x0 h3, all_pos x1 h4⟩

end Cert.PreFacts

end
-- ==== Proof.lean ====
/-
  The cosine loss of two [65536, 512] arrays c and e: 1 − (1/65536) · Σ_r cos_r, where cos_r is the cosine of rows
  c[r,·] and e[r,·].

  The kernel walks 64 blocks of 1024 rows; for each row it takes the one quotient
      (Σ_k c·e) / √( Σ_k c² · Σ_k e² ),
  sums the block's rows, and carries the running sum across the grid, dividing by 65536 and subtracting from 1 at the
  last point. The reference first normalises each row of e and of c by its norm √Σ_k x², multiplies entry by entry
  and sums: Σ_k (e/‖e‖)·(c/‖c‖), then the mean over the rows. For real entries and rows of nonzero norm the two
  row formulas are one real number, since √(A·B) = √A·√B for A, B ≥ 0, and sums of extended reals may be regrouped
  freely, so the totals agree (on a row of zero norm both programs divide zero by zero, which is why the precondition
  asks every row's sum of squares to be positive).

  The three frames are the generated ones (the reference's is its run with the result dropped); the idealization
  rewrote nothing, so `preserves` is `True`.
-/
import proofs.«102373_j52166672777434_1_alg».proof.Defs
import proofs.«102373_j52166672777434_1_alg».proof.Proof.Gen.Kernel
import proofs.«102373_j52166672777434_1_alg».proof.Proof.Gen.Kernel.Skeleton
import proofs.«102373_j52166672777434_1_alg».proof.Proof.Gen.Kernel.Launch
import proofs.«102373_j52166672777434_1_alg».proof.Proof.Gen.Kernel.Points
import proofs.«102373_j52166672777434_1_alg».proof.Proof.Gen.Kernel.Frame
import proofs.«102373_j52166672777434_1_alg».proof.Proof.Gen.KernelIdeal
import proofs.«102373_j52166672777434_1_alg».proof.Proof.Gen.KernelIdeal.Skeleton
import proofs.«102373_j52166672777434_1_alg».proof.Proof.Gen.KernelIdeal.Launch
import proofs.«102373_j52166672777434_1_alg».proof.Proof.Gen.KernelIdeal.Points
import proofs.«102373_j52166672777434_1_alg».proof.Proof.Gen.KernelIdeal.Frame
import proofs.«102373_j52166672777434_1_alg».proof.Proof.Gen.ReferenceIdeal
import proofs.«102373_j52166672777434_1_alg».proof.Proof.Gen.Pre_finite_inputs
import proofs.«102373_j52166672777434_1_alg».proof.Proof.Gen.ReferenceIdeal.Run
import proofs.«102373_j52166672777434_1_alg».proof.Proof.Gen.ReferenceIdeal.Read
import proofs.«102373_j52166672777434_1_alg».proof.Proof.KernelRead
import proofs.«102373_j52166672777434_1_alg».proof.Proof.RefRead
import proofs.«102373_j52166672777434_1_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both results are `loss` of the arguments: the kernel's for any values, the reference's where every entry is a
    real number and every row has a positive sum of squares, which is what the precondition says. -/
theorem algebraic : Cert.algebraic_KernelIdeal_ReferenceIdeal := by
  intro m ρ m' ρ' hpre hagree
  refine ⟨fun c => fun _ => Cert.CosineSpec.loss (Cert.KernelIdeal.RunValue.carr m c) (Cert.KernelIdeal.RunValue.earr m c), ?_, ?_⟩
  · refine (θ_run Cert.KernelIdeal.defs _ _).mono (fun _ h c => ⟨(h c).1.trans ?_, (h c).2⟩)
      (Cert.KernelIdeal.RunValue.run (F := Ideal) m ρ)
    funext j
    exact Cert.KernelIdeal.RunValue.result_apply m c j
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v10_eq]
    obtain ⟨h0, h1, h2, h3⟩ := Cert.PreFacts.of_pre _ _ (hpre c)
    funext j
    exact Cert.ReferenceIdeal.RefValue.result_apply _ _ h0 h1 h2 h3 j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
